-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S1024x2048 : Shape := ⟨2, ![1024, 2048]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S8388608 .f32) (main_arg1 : FVec F S8388608 .f32) (main_arg2 : FVec F S1024x2048 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S8388608 : Shape := ⟨1, ![8388608]⟩
abbrev S1024x2048 : Shape := ⟨2, ![1024, 2048]⟩
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩
abbrev S1x2048 : Shape := ⟨2, ![1, 2048]⟩
abbrev S1024x256 : Shape := ⟨2, ![1024, 256]⟩
abbrev S1x256 : Shape := ⟨2, ![1, 256]⟩
abbrev S256 : Shape := ⟨1, ![256]⟩
abbrev S2048 : Shape := ⟨1, ![2048]⟩
abbrev S1024 : Shape := ⟨1, ![1024]⟩
abbrev S64x16 : Shape := ⟨2, ![64, 16]⟩
abbrev S64 : Shape := ⟨1, ![64]⟩

abbrev nBuf : Space → Nat
  | .hbm => 50
  | .vmem => 9
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S1024, .f32⟩
  | .hbm, ⟨13, _⟩ => ⟨S64x16, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1024, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S1024x256, .f32⟩
  | .local _ .vmem, ⟨6, _⟩ => ⟨S1024x256, .f32⟩
  | .local _ .vmem, ⟨7, _⟩ => ⟨S1x256, .f32⟩
  | .local _ .vmem, ⟨8, _⟩ => ⟨S1x256, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S8388608_S8192x1024 : S8388608.ShapeCasts S8192x1024
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  inb_S1024x256_S1024x256_0_0 : ∀ a, (![0, 0] : Fin 2 → Nat) a + S1024x256.size a ≤ S1024x256.size a
  h_S1024x256 : 0 < S1024x256.numel
  reduces_S1024x256_S256 : S1024x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x2048_S2048 : S1x2048.ShapeCasts S2048
  slices_S2048_S1024_0 : S2048.Slices ![0] S1024
  shapeCasts_S1024_S64x16 : S1024.ShapeCasts S64x16
  reducesTo_S64x16_S64_d1 : S64x16.ReducesTo [1] S64
  h_S_ : 0 < S_.numel
  bcast_S_S64 : S_.BroadcastsInDim S64 (![] : Fin 0 → Fin S64.rank)
  slices_S2048_S1024_1024 : S2048.Slices ![1024] S1024
  reducesTo_S64_S_d0 : S64.ReducesTo [0] S_
  bcast_S_S1024 : S_.BroadcastsInDim S1024 (![] : Fin 0 → Fin S1024.rank)
  reducesTo_S1024_S_d0 : S1024.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x2048.size a
  hwx1_0 : ∀ i : grid1.Coords, EltTy.bits .f32 = 32 ∨ (Rect.block (s := S1024x2048) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x2048.size a
  hwx1_1 : ∀ i : grid1.Coords, EltTy.bits .f32 = 32 ∨ (Rect.block (s := S1x2048) S1x256.size (cc1_transform_1 i) (hinb1_1 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8388608 : Shape := ⟨1, ![8388608]⟩
abbrev S1024x2048 : Shape := ⟨2, ![1024, 2048]⟩
abbrev S_ : Shape := ⟨0, ![]⟩
abbrev S2048 : Shape := ⟨1, ![2048]⟩
abbrev S64 : Shape := ⟨1, ![64]⟩
abbrev S64x16 : Shape := ⟨2, ![64, 16]⟩
abbrev S1024 : Shape := ⟨1, ![1024]⟩
abbrev S1024x1 : Shape := ⟨2, ![1024, 1]⟩

abbrev nBuf : Space → Nat
  | .hbm => 87
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S1024x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S_, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S_, .f32⟩
  | .hbm, ⟨13, _⟩ => ⟨S8388608, .f32⟩
  | .hbm, ⟨14, _⟩ => ⟨S8388608, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8388608, .f32⟩
  | .hbm, ⟨19, _⟩ => ⟨S8388608, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S_, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1024x2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S64, .i32⟩
  | .hbm, ⟨46, _⟩ => ⟨S64x16, .i32⟩
  | .hbm, ⟨47, _⟩ => ⟨S1024, .i32⟩
  | .hbm, ⟨48, _⟩ => ⟨S1024, .f32⟩
  | .hbm, ⟨49, _⟩ => ⟨S_, .f32⟩
  | .hbm, ⟨50, _⟩ => ⟨S64, .f32⟩
  | .hbm, ⟨51, _⟩ => ⟨S1024x1, .i32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v4 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_5 : Ref sig .tc := ⟨.hbm, 28, rfl⟩
abbrev main_v9 : Ref sig .tc := ⟨.hbm, 29, rfl⟩
abbrev main_v10 : Ref sig .tc := ⟨.hbm, 30, rfl⟩
abbrev main_cst_6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_cst_8 : Ref sig .tc := ⟨.hbm, 39, rfl⟩
abbrev main_v17 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_14 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel
  reducesTo_S1024x2048_S2048_d0 : S1024x2048.ReducesTo [0] S2048
  bcast_S64_S64x16_0 : S64.BroadcastsInDim S64x16 (![0] : Fin 1 → Fin S64x16.rank)
  shapeCasts_S64x16_S1024 : S64x16.ShapeCasts S1024
  slices_S2048_S1024_0 : S2048.Slices ![0] S1024
  bcast_S_S64 : S_.BroadcastsInDim S64 (![] : Fin 0 → Fin S64.rank)
  bcast_S1024_S1024x1_0 : S1024.BroadcastsInDim S1024x1 (![0] : Fin 1 → Fin S1024x1.rank)
  reducesTo_S64_S_d0 : S64.ReducesTo [0] S_
  slices_S2048_S1024_1024 : S2048.Slices ![1024] S1024
  bcast_S_S1024 : S_.BroadcastsInDim S1024 (![] : Fin 0 → Fin S1024.rank)
  reducesTo_S1024_S_d0 : S1024.ReducesTo [0] S_
  scatter_S64_S1024x1_S1024_n_0_0_1_wf : ScatterDims.WF S64 S1024x1 S1024 [] [0] [0] 1

variable [Facts₀]

def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf

class Facts : Prop extends Facts₀ where

variable [Facts]
-- ==== Proof.Loss.lean ====
/-
  The mathematics both programs compute, with no program in sight.

  For one sample with predicted probability `p` and label `y` the weighted cross-entropy term is
    nll p y = 0 - (w₊ · y · log (clip p) + w₋ · (1 - y) · log (clip (1 - p))),   clip x = min hi (max lo x),
  with the four float words lo = 2⁻²³, hi = 1 - 2⁻²³·2, w₊ = f32(0.7), w₋ = f32(0.3) read at their exact binary values,
  every operation the extended reals' own.  The loss is the sum of `nll` over all 2²³ samples divided by 2²³, plus
  0.01 times a penalty of the column norms of the weight matrix.
-/
import Idealize.ShloMosaic.PureOps.Ideal
import Idealize.ShloMosaic.PureOps.Ideal.Laws
import Idealize.ShloMosaic.Lib.ValueIdx

noncomputable section

namespace Cert.Loss

open Idealize.ShloMosaic

/-- One sample's term of the weighted binary cross-entropy, over the extended reals: the two logarithms are taken of
    the probability and of its complement clipped into [2⁻²³, 1 - 2⁻²³·2], weighted by the label and its complement,
    and the sum is negated by subtracting it from zero. -/
def nll (p y : Ideal .f32) : Ideal .f32 :=
  FloatOps.subf (Scalar.ofBits .f32 0x00000000#32)
    (FloatOps.addf
      (FloatOps.mulf (FloatOps.mulf (Scalar.ofBits .f32 0x3F333333#32) y)
        (FloatOps.log (FloatOps.minimumf (Scalar.ofBits .f32 0x3F7FFFFE#32)
          (FloatOps.maximumf (Scalar.ofBits .f32 0x34000000#32) p))))
      (FloatOps.mulf (FloatOps.mulf (Scalar.ofBits .f32 0x3E99999A#32) (FloatOps.subf (Scalar.ofBits .f32 0x3F800000#32) y))
        (FloatOps.log (FloatOps.minimumf (Scalar.ofBits .f32 0x3F7FFFFE#32)
          (FloatOps.maximumf (Scalar.ofBits .f32 0x34000000#32) (FloatOps.subf (Scalar.ofBits .f32 0x3F800000#32) p))))))

/-! ## Literal shapes (the same literals both printed programs name) -/

abbrev S_ : Shape := ⟨0, ![]⟩
abbrev S64 : Shape := ⟨1, ![64]⟩
abbrev S1024 : Shape := ⟨1, ![1024]⟩
abbrev S2048 : Shape := ⟨1, ![2048]⟩
abbrev S8388608 : Shape := ⟨1, ![8388608]⟩
abbrev S64x16 : Shape := ⟨2, ![64, 16]⟩
abbrev S1024x1 : Shape := ⟨2, ![1024, 1]⟩
abbrev S1x2048 : Shape := ⟨2, ![1, 2048]⟩
abbrev S1024x2048 : Shape := ⟨2, ![1024, 2048]⟩
abbrev S8192x1024 : Shape := ⟨2, ![8192, 1024]⟩

/-! ## The two sums -/

/-- Row `r` of the `t`-th band of 512 rows, among the 8192 rows of the samples laid out 8192 × 1024. -/
def tileRow (t : Fin 16) (r : Fin 512) : Fin 8192 := ⟨512 * t.val + r.val, by omega⟩

/-- The sample at row `R`, lane `l` of that layout, in the flat order: `1024 · R + l`. -/
def flat (R : Fin 8192) (l : Fin 1024) : Fin 8388608 := ⟨1024 * R.val + l.val, by omega⟩

/-- The cross-entropy terms of all samples, added band by band, row by row, lane by lane. -/
def total (P Y : Fin 8192 → Fin 1024 → EReal) : EReal :=
  ∑ t : Fin 16, ∑ r : Fin 512, ∑ l : Fin 1024, nll (P (tileRow t r) l) (Y (tileRow t r) l)

/-- The sum of squares down column `q` of a 1024 × 2048 matrix. -/
def colsq (W : Fin 1024 → Fin 2048 → EReal) (q : Fin 2048) : EReal := ∑ r : Fin 1024, W r q * W r q

end Cert.Loss

end
-- ==== Proof.Objective.lean ====
/-
  The regularised objective as ONE function of the three inputs, over the extended reals:

    objective p y W = total(p, y) / 2²³ + 0.01 · ( Σ_g f (mean of group g of the column norms) + Σ_q f (column norm 1024 + q) ),
    f x = 1 - exp (-(x · x) / 1) + |x|,   column norm q = sqrt (Σ_r W r q · W r q),

  the first 1024 column norms taken in 64 groups of 16 consecutive columns (their mean: the group's sum divided by 16),
  the other 1024 one by one.  `total` and `colsq` are Loss.lean's sums; the penalty's operations are the host's, the
  same on both sides of the comparison, so they are carried here as one opaque function `reg`.
-/
import proofs.«107745_j87479893885401_1_alg».proof.Proof.Loss
import Idealize.ShloMosaic.PureOps

noncomputable section

namespace Cert.Loss

open Idealize.ShloMosaic Idealize.ShloMosaic.ValueIdx

/-- The penalty `f x = 1 - exp (-(x · x) / 1) + |x|`, elementwise on a vector of any shape. -/
def penalty {s : Shape} (hb : S_.BroadcastsInDim s (![] : Fin 0 → Fin s.rank)) (x : FVec Ideal s .f32) : FVec Ideal s .f32 :=
  addf
    (subf (broadcastInDim s ![] hb (constant S_ .f32 0x3F800000#32))
      (Host.exp (Host.divf (Host.negf (mulf x x)) (broadcastInDim s ![] hb (constant S_ .f32 0x3F800000#32)))))
    (Host.absf x)

/-- `0.01 · (Σ f (group means) + Σ f (the remaining column norms))`, from the 64 group means and the 1024 remaining norms. -/
def reg (hb64 : S_.BroadcastsInDim S64 (![] : Fin 0 → Fin S64.rank)) (hb1024 : S_.BroadcastsInDim S1024 (![] : Fin 0 → Fin S1024.rank))
    (hr64 : S64.ReducesTo [0] S_) (hr1024 : S1024.ReducesTo [0] S_) (h0 : 0 < S_.numel)
    (gm : FVec Ideal S64 .f32) (rest : FVec Ideal S1024 .f32) : FVec Ideal S_ .f32 :=
  mulf
    (addf (Host.reduceAdd (penalty hb64 gm) (constant S_ .f32 0x00000000#32) hr64 h0)
      (Host.reduceAdd (penalty hb1024 rest) (constant S_ .f32 0x00000000#32) hr1024 h0))
    (constant S_ .f32 0x3C23D70A#32)

/-- The 2048 column norms of the weight matrix. -/
def colNorm (W : FVec Ideal S1024x2048 .f32) : FVec Ideal S2048 .f32 :=
  Host.sqrt fun j => colsq (fun r q => W (ix2 r q)) (j 0)

/-- The 64 group means: the first 1024 column norms laid out 64 × 16, summed along each row, divided by 16. -/
def groupMean (cn : FVec Ideal S2048 .f32) : FVec Ideal S64 .f32 :=
  Host.divf
    (Host.reduceAdd (shapeCast S64x16 (extractStridedSlice S1024 ![0] cn (by decide)) (by decide))
      (constant S_ .f32 0x00000000#32) (by decide : S64x16.ReducesTo [1] S64) (by decide : 0 < S_.numel))
    (broadcastInDim S64 ![] (by decide) (constant S_ .f32 0x41800000#32))

/-- From the bce quotient and the 2048 column norms to the result: the quotient plus 0.01 times the penalty of the group
    means and of the last 1024 norms. -/
def finish (bce : FVec Ideal S_ .f32) (cn : FVec Ideal S2048 .f32) : FVec Ideal S_ .f32 :=
  addf bce
    (reg (by decide) (by decide) (by decide) (by decide) (by decide) (groupMean cn)
      (extractStridedSlice S1024 ![1024] cn (by decide)))

/-- The whole objective, as the one-entry vector both programs return. -/
def objective (p y : FVec Ideal S8388608 .f32) (W : FVec Ideal S1024x2048 .f32) : FVec Ideal S_ .f32 :=
  finish
    (Host.divf (fun _ => total (fun R l => p (ix1 (flat R l))) (fun R l => y (ix1 (flat R l)))) (constant S_ .f32 0x4B000000#32))
    (colNorm W)

end Cert.Loss

end
-- ==== Proof.BceRegion.lean ====
import proofs.«107745_j87479893885401_1_alg».proof.Proof.Gen.KernelIdeal.Frame
import proofs.«107745_j87479893885401_1_alg».proof.Proof.Loss
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Bce

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## What each case of the body leaves in the 1 × 1 staging buffer, at any float values -/

section Cases
variable {F : FTy → Type} [FloatOps F]

theorem hz : (![0, 0] : Fin 2 → Nat) = fun _ => 0 := funext fun a => by fin_cases a <;> rfl

/-- At every point but the first the body leaves, in the output's buffer holding `xo`, the update of `xo` by the two
    input blocks: its one covering store's payload, whose loads read the whole buffers. -/
theorem out_B (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : ¬cond0_0 i) (x0 x1 : Vec F S512x1024 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S1x1) hz]

/-- At the first point the body stores the zero block, reads it back, and leaves its update by the two input blocks. -/
theorem out_A (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : cond0_0 i) (x0 x1 : Vec F S512x1024 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz]
  simp only [View.readAt_eq_ld, h1.read_unread, h2.read_unread, View.ld_unit_zero (S := S512x1024) hz,
    View.readCov_unit_zero (S := S1x1) _ hz]

end Cases

/-! ## The update, over the extended reals: the old value plus the block's cross-entropy terms, row by row, lane by lane -/

section Pay
open scoped BigOperators

/-- The update's elementwise term is one sample's cross-entropy term. -/
theorem pay2_eq (x0 x1 : Vec Ideal S512x1024 .f32) (xo : Vec Ideal S1x1 .f32) :
    k0_pay2 (F := Ideal) x0 x1 xo
      = addf xo (shapeCast S1x1 (multiReduction .add [0] S1 (shapeCast S512x1
          (multiReduction .add [1] S512 (fun i => Cert.Loss.nll (x0 i) (x1 i) : FVec Ideal S512x1024 .f32) 0x00000000#32
            reduces_S512x1024_S512 (.inl rfl) rfl)
          shapeCasts_S512_S512x1) 0x00000000#32 reduces_S512x1_S1 (.inl rfl) rfl) shapeCasts_S1_S1x1) := by
  unfold k0_pay2
  simp only [shapeCast_self]
  rfl

/-- The update at the block's one index: the lanes of each row are summed, then the rows. -/
theorem pay2_apply (x0 x1 : Vec Ideal S512x1024 .f32) (xo : Vec Ideal S1x1 .f32) (j : S1x1.Idx) :
    (k0_pay2 (F := Ideal) x0 x1 xo j : EReal)
      = xo j + ∑ r : Fin 512, ∑ l : Fin 1024, Cert.Loss.nll (x0 (ix2 r l)) (x1 (ix2 r l)) := by
  rw [pay2_eq]
  refine (addf_apply _ _ j).trans ?_
  congr 1
  refine (shapeCast_apply _ shapeCasts_S1_S1x1 j (ix1 (0 : Fin 1)) ?_).trans ?_
  · rw [Shape.rowMajor_val_one, Shape.rowMajor_val_two]
    have h0 := idx2_lt0 j
    have h1 := idx2_lt1 j
    show 0 = (j 0).val * 1 + (j 1).val
    omega
  refine (Ideal.multiReduction_add_single _ _ reduces_S512x1_S1 _ _ (ix1 (0 : Fin 1))).trans ?_
  refine Finset.sum_congr rfl fun (r : Fin 512) _ => ?_
  refine (shapeCast_apply _ shapeCasts_S512_S512x1 _ (ix1 r) ?_).trans ?_
  · rw [Shape.rowMajor_val_one, Shape.rowMajor_val_two]
    show r.val = r.val * 1 + 0
    omega
  refine (Ideal.multiReduction_add_single _ _ reduces_S512x1024_S512 _ _ (ix1 r)).trans ?_
  refine Finset.sum_congr rfl fun (l : Fin 1024) _ => ?_
  have e : reduces_S512x1024_S512.lift (ix1 r) l = ix2 r l := Shape.idx_ext₂ rfl rfl
  show Cert.Loss.nll (x0 (reduces_S512x1024_S512.lift (ix1 r) l)) (x1 (reduces_S512x1024_S512.lift (ix1 r) l)) = _
  rw [e]

end Pay

/-! ## The input blocks: point `t` reads the `t`-th band of 512 rows of each array -/

section Blocks

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

/-- Row `r`, lane `l` of the first array's block at point `t` is the array at row `512 t + r`, lane `l`. -/
theorem blk0_apply (c : Dev nD) (t : Fin cfg0.N) (t' : Fin 16) (ht : t'.val = t.val) (r : Fin 512) (l : Fin 1024) :
    (iblk0 V c 0 t : Vec Ideal S512x1024 .f32) (ix2 r l) = V c main_v0 (ix2 (Cert.Loss.tileRow t' r) l) := by
  have hi := index0 t
  unfold iblk0
  rw [View.read_apply]
  show V c main_v0 _ = V c main_v0 _
  congr 1
  funext a
  apply Fin.ext
  match a with
  | ⟨0, _⟩ => show win0_0.index t 0 * 512 + 1 * r.val = 512 * t'.val + r.val; rw [hi.1, ht]; omega
  | ⟨1, _⟩ => show win0_0.index t 1 * 1024 + 1 * l.val = l.val; rw [hi.2]; omega

/-- The second array's likewise. -/
theorem blk1_apply (c : Dev nD) (t : Fin cfg0.N) (t' : Fin 16) (ht : t'.val = t.val) (r : Fin 512) (l : Fin 1024) :
    (iblk0 V c 1 t : Vec Ideal S512x1024 .f32) (ix2 r l) = V c main_v1 (ix2 (Cert.Loss.tileRow t' r) l) := by
  have hi := index1 t
  unfold iblk0
  rw [View.read_apply]
  show V c main_v1 _ = V c main_v1 _
  congr 1
  funext a
  apply Fin.ext
  match a with
  | ⟨0, _⟩ => show win0_1.index t 0 * 512 + 1 * r.val = 512 * t'.val + r.val; rw [hi.1, ht]; omega
  | ⟨1, _⟩ => show win0_1.index t 1 * 1024 + 1 * l.val = l.val; rw [hi.2]; omega

end Blocks

/-! ## The running sum: after point `n` the buffer holds the terms of bands `0 … n` -/

section Sum
open scoped BigOperators

/-- The two input blocks at point `t`, at their literal shape. -/
abbrev pblk (c : Dev nD) (t : Fin cfg0.N) : Vec Ideal S512x1024 .f32 := iblk0 V c 0 t
abbrev yblk (c : Dev nD) (t : Fin cfg0.N) : Vec Ideal S512x1024 .f32 := iblk0 V c 1 t

/-- The cross-entropy terms of band `n` of 512 rows, added row by row, lane by lane (zero past the sixteen bands). -/
def band (c : Dev nD) (n : ℕ) : EReal :=
  if h : n < 16 then
    ∑ r : Fin 512, ∑ l : Fin 1024,
      Cert.Loss.nll (V c main_v0 (ix2 (Cert.Loss.tileRow ⟨n, h⟩ r) l)) (V c main_v1 (ix2 (Cert.Loss.tileRow ⟨n, h⟩ r) l))
  else 0

/-- The update at point `t`'s blocks adds band `t`. -/
theorem pay2_blk (c : Dev nD) (t : Fin cfg0.N) (xo : Vec Ideal S1x1 .f32) (j : S1x1.Idx) :
    (k0_pay2 (F := Ideal) (pblk V c t) (yblk V c t) xo j : EReal) = xo j + band V c t.val := by
  have hN : t.val < 16 := lt_of_lt_of_eq t.isLt N_0
  refine (pay2_apply (pblk V c t) (yblk V c t) xo j).trans ?_
  have e : ∀ (r : Fin 512) (l : Fin 1024), Cert.Loss.nll (pblk V c t (ix2 r l)) (yblk V c t (ix2 r l))
      = Cert.Loss.nll (V c main_v0 (ix2 (Cert.Loss.tileRow ⟨t.val, hN⟩ r) l)) (V c main_v1 (ix2 (Cert.Loss.tileRow ⟨t.val, hN⟩ r) l)) :=
    fun r l => congrArg₂ Cert.Loss.nll (blk0_apply V c t ⟨t.val, hN⟩ rfl r l) (blk1_apply V c t ⟨t.val, hN⟩ rfl r l)
  have hb : band V c t.val = ∑ r : Fin 512, ∑ l : Fin 1024,
      Cert.Loss.nll (V c main_v0 (ix2 (Cert.Loss.tileRow ⟨t.val, hN⟩ r) l)) (V c main_v1 (ix2 (Cert.Loss.tileRow ⟨t.val, hN⟩ r) l)) := dif_pos hN
  rw [hb]
  exact congrArg (xo j + ·) (Finset.sum_congr rfl fun r _ => Finset.sum_congr rfl fun l _ => e r l)

/-- What the output's staging buffer holds after point `n` is the sum of the bands up to `n`: by induction on the point. -/
theorem outsAt_eq (c : Dev nD) : ∀ (n : ℕ) (h : n < cfg0.N),
    (outsAt0 V c n h : S1x1.Idx → EReal) = fun _ => ∑ s ∈ Finset.range (n + 1), band V c s
  | 0, h => by
    refine (outsAt0_A V c ⟨0, h⟩ rfl).trans ?_
    refine (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (pblk V c ⟨0, h⟩) (yblk V c ⟨0, h⟩)).trans ?_
    funext j
    refine (pay2_blk V c ⟨0, h⟩ (k0_pay1 (F := Ideal)) j).trans ?_
    show Ideal.ofBits .f32 0x00000000#32 + band V c 0 = _
    rw [Ideal.ofBits_zero_f32, zero_add, Finset.sum_range_one]
  | n + 1, h => by
    have hN : cfg0.N = 16 := N_0
    have hB : ¬(⟨n + 1, h⟩ : Fin cfg0.N).val % 16 = 0 := by dsimp only; omega
    refine (outsAt0_B V c ⟨n + 1, h⟩ hB).trans ?_
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun h' => hB ((hcond0_0 ⟨n + 1, h⟩).mp h')) (pblk V c ⟨n + 1, h⟩) (yblk V c ⟨n + 1, h⟩)
      (outsAt0 V c n (Nat.lt_of_succ_lt h))).trans ?_
    funext j
    refine (pay2_blk V c ⟨n + 1, h⟩ (outsAt0 V c n (Nat.lt_of_succ_lt h)) j).trans ?_
    show (outsAt0 V c n (Nat.lt_of_succ_lt h) : S1x1.Idx → EReal) j + band V c (n + 1) = _
    rw [outsAt_eq c n (Nat.lt_of_succ_lt h), Finset.sum_range_succ _ (n + 1)]

end Sum
/-! ## The result array: the last point's write-back is the whole 1 × 1 array -/

section Final
open scoped BigOperators

/-- The sum of all sixteen bands, as contents of the 1 × 1 result array. -/
abbrev result (c : Dev nD) : Buf (Elt Ideal) ((c : Thread nD τ).loc main_v2) :=
  ((fun _ => ∑ s ∈ Finset.range 16, band V c s) : S1x1.Idx → EReal)

/-- The one write-back, at the last point, writes it: the block at zero offsets of the 1 × 1 array is the array. -/
theorem flushed_eq (c : Dev nD) (t : Fin cfg0.N) (hf : (cfg0.win 2).flush t = true) :
    (dat0 V c).flushed 2 t = ((cfg0.win 2).blk t).view.read (Elt Ideal) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz' : (fun a => win0_2.index t0_15 a * main_v2.ty.shape.size a) = fun _ => 0 := funext fun a => by fin_cases a <;> decide
  exact (Memref.read_access_unit_zero (Elt Ideal) main_v2 hz' (fun a => by rw [congrFun hz' a]; simp) (result V c)).symm

/-- So the result array ends holding the sum of the sixteen bands: the last point's block covers it. -/
theorem final_o (c : Dev nD) : (dat0 V c).arrAt 2 cfg0.N = result V c :=
  (dat0 V c).arrAt_eq_of_cover 2 (result V c) (flushed_eq V c) fun i =>
    ⟨t0_15, (flush0_2 t0_15).mpr rfl, by
      show i ∈ ((View.whole main_v2).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

end Final

/-- After its sixteen grid points the first kernel's 1 × 1 result array holds the cross-entropy terms of all samples,
    added band by band (one grid point per band of 512 rows), row by row, lane by lane: `Loss.total` of the two
    8192 × 1024 arrays the region finds. -/
theorem acc_final (c : Dev nD) :
    ((dat0 (F := Ideal) V c).arrAt 2 cfg0.N : S1x1.Idx → Ideal .f32)
      = fun _ => Cert.Loss.total (fun R l => V c main_v0 (ix2 R l)) (fun R l => V c main_v1 (ix2 R l)) := by
  refine (final_o V c).trans ?_
  funext _
  show ∑ s ∈ Finset.range 16, band V c s = Cert.Loss.total _ _
  unfold Cert.Loss.total
  rw [← Fin.sum_univ_eq_sum_range (fun s => band V c s) 16]
  refine Finset.sum_congr rfl fun t _ => ?_
  unfold band
  rw [dif_pos t.isLt]

end Cert.KernelIdeal.Bce

end
-- ==== Proof.ColRegion.lean ====
import proofs.«107745_j87479893885401_1_alg».proof.Proof.Gen.KernelIdeal.Frame
import proofs.«107745_j87479893885401_1_alg».proof.Proof.Loss
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Col

open Cert.KernelIdeal Cert.KernelIdeal.Gen
open Idealize.ShloMosaic Idealize.ShloMosaic.TcCoe Idealize.SL.Sem Idealize.ShloMosaic.ValueIdx
open Idealize.ShloMosaic.Pipeline (Dat)

/-! ## One block: the sums of squares down its 256 columns -/

/-- The zero offsets of the body's one load and one store, as the constant function. -/
theorem zero_offsets : (![0, 0] : Fin 2 → Nat) = fun _ => 0 := funext fun a => by fin_cases a <;> rfl

/-- The sum down the 1024 rows of a 1024 × 256 block, read at column `q`: the sum over the rows `r` of the block at
    `(r, q)`. -/
theorem rowsum_apply (v : FVec Ideal S1024x256 .f32) (h : S1024x256.Reduces [0] S256) (hφ : FKind.Formats .f32)
    (hacc : (0x00000000#32 : BitVec 32) = FKind.add.neutral .f32 hφ) (q : Fin 256) :
    multiReduction (F := Ideal) .add [0] S256 v 0x00000000#32 h hφ hacc (ix1 q) = ∑ r : Fin 1024, v (ix2 r q) := by
  refine (Ideal.multiReduction_add_single v _ h hφ hacc (ix1 q)).trans ?_
  refine Finset.sum_congr rfl fun r _ => congrArg v ?_
  funext a; apply Fin.ext
  match a with
  | ⟨0, _⟩ => rfl
  | ⟨1, _⟩ => rfl

/-- What the body stores, at `(0, q)` of its 1 × 256 block: the sum over the rows of the squares of the loaded
    block's column `q` (the 256 sums are laid out as one row: position `q` of the row is position `q` of the sums). -/
theorem colsum_apply (x0 : Vec Ideal S1024x256 .f32) (z : Fin 1) (q : Fin 256) :
    k1_pay1 x0 (ix2 z q) = ∑ r : Fin 1024, x0 (ix2 r q) * x0 (ix2 r q) := by
  unfold k1_pay1
  refine (shapeCast_apply _ _ (ix2 z q) (ix1 q) ?_).trans ?_
  · rw [Shape.rowMajor_val_one, Shape.rowMajor_val_two]
    show q.val = z.val * 256 + q.val
    omega
  · exact rowsum_apply _ _ _ _ q

/-! ## From the blocks to the array -/

variable (V : (c : Dev nD) → (b : Ref sig .tc) → Buf (Elt Ideal) ((c : Thread nD τ).loc b))

/-- The two index maps over the grid: at point `t` both the matrix's block and the result's block are block `(0, t)`. -/
theorem block_index : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

/-- What point `t` writes back is block `t` of the row of column sums of squares of the whole matrix: column `q` of
    the point's 1024 × 256 block is column `256 t + q` of the matrix, all 1024 rows of it, and `(0, q)` of the point's
    1 × 256 block is `(0, 256 t + q)` of the result. -/
theorem flushed_eq (c : Dev nD) (t : Fin cfg1.N) :
    (dat1 (F := Ideal) V c).flushed 1 t = ((cfg1.win 1).blk t).view.read (Elt Ideal)
      (fun j => Cert.Loss.colsq (fun r q => V c main_arg2 (ix2 r q)) (j 1)) := by
  show (cfg1.win 1).cut (grid1.coords t) ((dat1 V c).after 1 t) = _
  rw [after1_1]
  unfold out1_1
  rw [View.canon_unit_zero zero_offsets]
  simp only [View.ld_unit_zero (S := S1024x256) zero_offsets]
  funext j
  show k1_pay1 (iblk1 V c 0 t) j
    = Cert.Loss.colsq (fun r q => V c main_arg2 (ix2 r q)) ((((cfg1.win 1).blk t).view.emb j) 1)
  obtain ⟨z, q, rfl⟩ : ∃ (z : Fin 1) (q : Fin 256), j = ix2 z q := ⟨j 0, j 1, eq_ix2 j⟩
  rw [colsum_apply]
  unfold Cert.Loss.colsq
  obtain ⟨e0, e1, e2, e3⟩ := block_index t
  have hblk : ∀ r : Fin 1024, iblk1 V c 0 t (ix2 r q)
      = V c main_arg2 (ix2 r (((cfg1.win 1).blk t).view.emb (ix2 z q) 1)) := by
    intro r
    show V c main_arg2 (((cfg1.win 0).blk t).view.emb (ix2 r q)) = _
    refine congrArg _ ?_
    funext a; apply Fin.ext
    match a with
    | ⟨0, _⟩ => show win1_0.index t (0 : Fin 2) * 1024 + 1 * r.val = r.val; omega
    | ⟨1, _⟩ =>
      show win1_0.index t (1 : Fin 2) * 256 + 1 * q.val = win1_1.index t (1 : Fin 2) * 256 + 1 * q.val; omega
  refine Finset.sum_congr rfl fun r _ => ?_
  rw [hblk r]

/-- An index of the 1 × 2048 result is in point `t`'s block iff each coordinate is in the block's range on its axis. -/
theorem mem_blk (t : Fin cfg1.N) (i : S1x2048.Idx) :
    i ∈ ((cfg1.win 1).blk t).view.set ↔ ∀ a : Fin 2, win1_1.index t a * S1x256.size a ≤ (i a).val
      ∧ (i a).val < win1_1.index t a * S1x256.size a + S1x256.size a := by
  show i ∈ ((View.whole main_v5).slice (win1_1.rect t)).set ↔ _
  rw [View.set_slice_whole, Rect.mem_set_unit]
  exact Iff.rfl

/-- After its eight grid points the second kernel's 1 × 2048 result array holds, at column `q`, the sum of squares down
    column `q` of the 1024 × 2048 matrix the region finds (each grid point writes its own 256 columns). -/
theorem colsq_final (c : Dev nD) :
    ((dat1 (F := Ideal) V c).arrAt 1 cfg1.N : S1x2048.Idx → Ideal .f32)
      = fun j => Cert.Loss.colsq (fun r q => V c main_arg2 (ix2 r q)) (j 1) := by
  refine (dat1 V c).arrAt_eq_of_cover 1 _ (fun t _ => flushed_eq V c t) fun i => ?_
  -- column `q` of the result is written by point `q / 256`
  have hi0 : (i 0).val < 1 := (i 0).isLt
  have hi1 : (i 1).val < 2048 := (i 1).isLt
  have hN : cfg1.N = 8 := N_1
  obtain ⟨t, ht⟩ : ∃ t : Fin cfg1.N, t.val = (i 1).val / 256 := ⟨⟨(i 1).val / 256, by rw [hN]; omega⟩, rfl⟩
  obtain ⟨e0, e1, e2, e3⟩ := block_index t
  refine ⟨t, flush1_1 t, ?_⟩
  rw [mem_blk]
  intro a
  match a with
  | ⟨0, _⟩ =>
    show win1_1.index t (0 : Fin 2) * 1 ≤ (i 0).val ∧ (i 0).val < win1_1.index t (0 : Fin 2) * 1 + 1; omega
  | ⟨1, _⟩ =>
    show win1_1.index t (1 : Fin 2) * 256 ≤ (i 1).val ∧ (i 1).val < win1_1.index t (1 : Fin 2) * 256 + 256; omega

end Cert.KernelIdeal.Col

end
-- ==== Proof.FlatSum.lean ====
import proofs.«107745_j87479893885401_1_alg».proof.Proof.Loss
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

namespace Cert.Loss

open Idealize.ShloMosaic Idealize.ShloMosaic.ValueIdx

/-- The flat index set is the product of the band, row-in-band and lane ranges: sample
    `1024 · (512 · t + r) + l` sits at band `t`, row `r` of the band, lane `l`. -/
def flatEquiv : Fin 16 × Fin 512 × Fin 1024 ≃ S8388608.Idx where
  toFun q := ix1 (flat (tileRow q.1 q.2.1) q.2.2)
  invFun i :=
    have hi : (i 0).val < 8388608 := (i 0).isLt
    (⟨(i 0).val / 524288, by omega⟩, ⟨(i 0).val / 1024 % 512, by omega⟩, ⟨(i 0).val % 1024, by omega⟩)
  left_inv q := by
    obtain ⟨t, r, l⟩ := q
    have ht := t.isLt
    have hr := r.isLt
    have hl := l.isLt
    refine Prod.ext (Fin.ext ?_) (Prod.ext (Fin.ext ?_) (Fin.ext ?_))
    · show (1024 * (512 * t.val + r.val) + l.val) / 524288 = t.val
      omega
    · show (1024 * (512 * t.val + r.val) + l.val) / 1024 % 512 = r.val
      omega
    · show (1024 * (512 * t.val + r.val) + l.val) % 1024 = l.val
      omega
  right_inv i := by
    have hi : (i 0).val < 8388608 := (i 0).isLt
    funext d
    match d with
    | ⟨0, _⟩ =>
      refine Fin.ext ?_
      show 1024 * (512 * ((i 0).val / 524288) + (i 0).val / 1024 % 512) + (i 0).val % 1024 = (i 0).val
      omega

/-- A sum over the flat index set is the triple sum over bands, rows of a band, and lanes. -/
theorem sum_flat {M : Type*} [AddCommMonoid M] (f : S8388608.Idx → M) :
    ∑ i, f i = ∑ t : Fin 16, ∑ r : Fin 512, ∑ l : Fin 1024, f (ix1 (flat (tileRow t r) l)) := by
  rw [← Equiv.sum_comp flatEquiv f, Fintype.sum_prod_type]
  refine Finset.sum_congr rfl fun t _ => ?_
  rw [Fintype.sum_prod_type]
  rfl

/-- The host's negation is subtraction from zero, over the extended reals. -/
theorem neg_eq_zero_sub (a : EReal) : -a = Ideal.ofBits .f32 0x00000000#32 - a := by
  rw [Ideal.ofBits_zero_f32, zero_sub]

/-- The host's one sum over all 2²³ samples of the negated weighted log terms is `Loss.total` of the two flat vectors
    read 8192 × 1024 (sample `1024 · R + l` at row `R`, lane `l`): elementwise the host's operations are `nll`
    (negation is subtraction from zero; the host's logarithm is the kernel's), and a sum over the flat index set is the
    triple sum over bands, rows and lanes. -/
theorem host_total (p y : FVec Ideal S8388608 .f32) (h : S8388608.ReducesTo [0] S_) (h0 : 0 < S_.numel)
    (hb : S_.BroadcastsInDim S8388608 (![] : Fin 0 → Fin S8388608.rank)) :
    Host.reduceAdd
        (Host.negf
          (addf
            (mulf (mulf (broadcastInDim S8388608 ![] hb (constant S_ .f32 0x3F333333#32)) y)
              (Host.log (minimumf (broadcastInDim S8388608 ![] hb (id (constant S_ .f32 0x3F7FFFFE#32)))
                (maximumf (broadcastInDim S8388608 ![] hb (id (constant S_ .f32 0x34000000#32))) p))))
            (mulf (mulf (broadcastInDim S8388608 ![] hb (constant S_ .f32 0x3E99999A#32))
                (subf (broadcastInDim S8388608 ![] hb (constant S_ .f32 0x3F800000#32)) y))
              (Host.log (minimumf (broadcastInDim S8388608 ![] hb (id (constant S_ .f32 0x3F7FFFFE#32)))
                (maximumf (broadcastInDim S8388608 ![] hb (id (constant S_ .f32 0x34000000#32)))
                  (subf (broadcastInDim S8388608 ![] hb (constant S_ .f32 0x3F800000#32)) p)))))))
        (constant S_ .f32 0x00000000#32) h h0
      = fun _ => total (fun R l => p (ix1 (flat R l))) (fun R l => y (ix1 (flat R l))) := by
  funext j
  unfold Host.reduceAdd
  rw [Ideal.hostReduceAdd_def, Ideal.hostReduceAdd_total h (fun b => b.elim0)]
  show Ideal.ofBits .f32 0x00000000#32 + _ = _
  rw [Ideal.ofBits_zero_f32, zero_add, sum_flat]
  unfold total
  refine Finset.sum_congr rfl fun t _ => Finset.sum_congr rfl fun r _ => Finset.sum_congr rfl fun l _ => ?_
  exact neg_eq_zero_sub _

/-- Reading the flat vector 8192 × 1024 puts sample `1024 · R + l` at row `R`, lane `l`. -/
theorem reshape_flat (x : FVec Ideal S8388608 .f32) (h : S8388608.ShapeCasts S8192x1024) (R : Fin 8192) (l : Fin 1024) :
    shapeCast S8192x1024 x h (ix2 R l) = x (ix1 (flat R l)) := by
  refine shapeCast_apply x h (ix2 R l) (ix1 (flat R l)) ?_
  rw [Shape.rowMajor_val_one, Shape.rowMajor_val_two]
  show 1024 * R.val + l.val = R.val * 1024 + l.val
  omega

end Cert.Loss

end
-- ==== Proof.ColSum.lean ====
import proofs.«107745_j87479893885401_1_alg».proof.Proof.Loss
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

namespace Cert.Loss

open Idealize.ShloMosaic Idealize.ShloMosaic.ValueIdx

/-- The host's sum down the rows of the elementwise square of a 1024 × 2048 matrix is, at column `q`, the sum of
    squares down that column (the initial zero adds nothing). -/
theorem host_colsq (W : FVec Ideal S1024x2048 .f32) (h : S1024x2048.ReducesTo [0] S2048) (h0 : 0 < S_.numel) :
    Host.reduceAdd (mulf W W) (constant S_ .f32 0x00000000#32) h h0
      = fun j => colsq (fun r q => W (ix2 r q)) (j 0) := by
  funext j
  have hR : S1024x2048.Reduces [0] S2048 := by decide
  unfold Host.reduceAdd
  rw [Ideal.hostReduceAdd_def, Ideal.hostReduceAdd_single h hR]
  show Ideal.ofBits .f32 0x00000000#32 + _ = _
  rw [Ideal.ofBits_zero_f32, zero_add]
  unfold colsq
  refine Finset.sum_congr rfl fun k _ => ?_
  have e : hR.lift j k = ix2 k (j 0) := by
    funext c
    match c with
    | ⟨0, _⟩ => exact Fin.ext rfl
    | ⟨1, _⟩ => exact Fin.ext rfl
  rw [mulf_apply, e]
  rfl

/-- Dropping the unit row axis of a 1 × 2048 array keeps entry `(0, q)` at `q`. -/
theorem reshape_row (x : FVec Ideal S1x2048 .f32) (h : S1x2048.ShapeCasts S2048) :
    shapeCast S2048 x h = fun j => x (ix2 0 (j 0)) := by
  funext j
  refine shapeCast_apply x h j (ix2 0 (j 0)) ?_
  rw [Shape.rowMajor_val_one, Shape.rowMajor_val_two]
  show 0 * 2048 + (j 0).val = (j 0).val
  omega

end Cert.Loss

end
-- ==== Proof.KernelFold.lean ====
/-
  What the idealized kernel program returns, as the objective of its three inputs.

  The run ends with the result buffer at the fold of @main's segments.  Read back to front: the last host stretch
  applies the penalty and the final sum to the bce quotient and to the second kernel's column sums; the second kernel
  finds the weight matrix as launched; the quotient divides the first kernel's 1 × 1 result, which is `total` of
  the two inputs read 8192 × 1024.
-/
import proofs.«107745_j87479893885401_1_alg».proof.Proof.KernelRun
import proofs.«107745_j87479893885401_1_alg».proof.Proof.Objective
import proofs.«107745_j87479893885401_1_alg».proof.Proof.BceRegion
import proofs.«107745_j87479893885401_1_alg».proof.Proof.ColRegion
import proofs.«107745_j87479893885401_1_alg».proof.Proof.FlatSum
import proofs.«107745_j87479893885401_1_alg».proof.Proof.ColSum
import Idealize.ShloMosaic.Lib.StableHlo.Run

noncomputable section

namespace Cert.KernelIdeal.Run

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The first kernel finds the probabilities read 8192 × 1024 … -/
theorem entry_p (c : Dev nD) :
    V1 m ρ c main_v0 = shapeCast S8192x1024 (m ((c : Thread nD τ).loc main_arg0)) shapeCasts_S8388608_S8192x1024 := by
  dsimp only [V1, W1, hostOps0]
  after_results
  rfl

/-- … and the labels likewise. -/
theorem entry_y (c : Dev nD) :
    V1 m ρ c main_v1 = shapeCast S8192x1024 (m ((c : Thread nD τ).loc main_arg1)) shapeCasts_S8388608_S8192x1024 := by
  dsimp only [V1, W1, hostOps0]
  after_results
  rfl

/-- The second kernel finds the weight matrix as launched: nothing before it writes that buffer. -/
theorem entry_W (c : Dev nD) : V3 m ρ c main_arg2 = m ((c : Thread nD τ).loc main_arg2) := by
  dsimp only [V3, W3, hostOps1]
  after_results
  rw [W2_of_ne m ρ c main_arg2 (by decide)]
  dsimp only [W1, hostOps0]
  after_results

/-- The bce quotient as the second kernel and the last host stretch find it: the first kernel's 1 × 1 result, read as a
    scalar, divided by 2²³. -/
theorem bce_at_W4 (c : Dev nD) :
    (W4 m ρ c (Proc.devRef .tc main_v4) : FVec Ideal S_ .f32)
      = Host.divf (F := Ideal) (shapeCast S_ ((dat0 (V1 m ρ) c).arrAt 2 cfg0.N : S1x1.Idx → Ideal .f32) shapeCasts_S1x1_S_)
          (constant S_ .f32 0x4B000000#32) := by
  rw [W4_of_ne m ρ c main_v4 (by decide)]
  dsimp only [W3, hostOps1]
  after_results
  rw [show W2 m ρ c (Proc.devRef .tc main_v2) = (dat0 (V1 m ρ) c).arrAt 2 cfg0.N from W2_arr m ρ c 2]
  rfl

/-- The bce quotient is `total` of the two inputs, read 8192 × 1024, divided by 2²³. -/
theorem bce_value (c : Dev nD) :
    (W4 m ρ c (Proc.devRef .tc main_v4) : FVec Ideal S_ .f32)
      = Host.divf (F := Ideal)
          (fun _ => Cert.Loss.total (fun R l => m ((c : Thread nD τ).loc main_arg0) (ix1 (Cert.Loss.flat R l)))
            (fun R l => m ((c : Thread nD τ).loc main_arg1) (ix1 (Cert.Loss.flat R l))))
          (constant S_ .f32 0x4B000000#32) := by
  have hp : (fun (R : Fin 8192) (l : Fin 1024) =>
      shapeCast S8192x1024 (m ((c : Thread nD τ).loc main_arg0)) shapeCasts_S8388608_S8192x1024 (ix2 R l))
      = fun R l => m ((c : Thread nD τ).loc main_arg0) (ix1 (Cert.Loss.flat R l)) :=
    funext fun R => funext fun l => Cert.Loss.reshape_flat _ _ R l
  have hy : (fun (R : Fin 8192) (l : Fin 1024) =>
      shapeCast S8192x1024 (m ((c : Thread nD τ).loc main_arg1)) shapeCasts_S8388608_S8192x1024 (ix2 R l))
      = fun R l => m ((c : Thread nD τ).loc main_arg1) (ix1 (Cert.Loss.flat R l)) :=
    funext fun R => funext fun l => Cert.Loss.reshape_flat _ _ R l
  rw [bce_at_W4, Cert.KernelIdeal.Bce.acc_final (V1 m ρ) c, entry_p, entry_y, hp, hy]
  rfl

/-- The second kernel's result array, as the last host stretch finds it: at `(0, q)` the sum of squares down column
    `q` of the weight matrix as launched. -/
theorem cols_value (c : Dev nD) :
    (W4 m ρ c (Proc.devRef .tc main_v5) : FVec Ideal S1x2048 .f32)
      = fun j => Cert.Loss.colsq (fun r q => m ((c : Thread nD τ).loc main_arg2) (ix2 r q)) (j 1) := by
  rw [show W4 m ρ c (Proc.devRef .tc main_v5) = (dat1 (V3 m ρ) c).arrAt 1 cfg1.N from W4_arr m ρ c 1,
    Cert.KernelIdeal.Col.colsq_final (V3 m ρ) c, entry_W]

set_option maxHeartbeats 4000000 in
/-- The last host stretch, from whatever contents it finds: the result is `finish` of the bce quotient's buffer and of
    the square roots of the second kernel's result read as a vector of 2048. -/
theorem fold_eq (Wx : Valuation τ sig (Elt Ideal)) :
    (StableHlo.after hostOps2 Wx (Proc.devRef .tc main_v36) : FVec Ideal S_ .f32)
      = Cert.Loss.finish (Wx (Proc.devRef .tc main_v4))
          (Host.sqrt (shapeCast Cert.Loss.S2048 (Wx (Proc.devRef .tc main_v5) : FVec Ideal S1x2048 .f32) (by decide))) := by
  dsimp only [hostOps2]
  after_results_simp
  rfl

/-- The result buffer's final contents: the objective of the three inputs as launched. -/
theorem result_eq (c : Dev nD) :
    (W5 m ρ c (Proc.devRef .tc main_v36) : FVec Ideal S_ .f32)
      = Cert.Loss.objective (m ((c : Thread nD τ).loc main_arg0)) (m ((c : Thread nD τ).loc main_arg1))
          (m ((c : Thread nD τ).loc main_arg2)) := by
  dsimp only [W5]
  rw [fold_eq, bce_value, cols_value, Cert.Loss.reshape_row]
  rfl

end Cert.KernelIdeal.Run

end
-- ==== Proof.SegSum.lean ====
import proofs.«107745_j87479893885401_1_alg».proof.Proof.Loss
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

namespace Cert.Loss

open Idealize.ShloMosaic Idealize.ShloMosaic.ValueIdx

/-- The scatter's dimension numbers: no window axes in the updates, operand axis 0 inserted, the one index component
    naming operand axis 0, the index vector on axis 1 of the indices. -/
abbrev segsumDims (hwf : ScatterDims.WF S64 S1024x1 S1024 [] [0] [0] 1) : ScatterDims S64 S1024x1 S1024 := ⟨[], [0], [0], 1, hwf⟩

/-- The index word at `(i, 0)` is the word of `i / 16`: entry `i` of the flattened 64 × 16 array whose row `g` is
    constantly `g` sits in row `i / 16`. -/
theorem segsum_idx_word (hb1 : S1024.BroadcastsInDim S1024x1 (![0] : Fin 1 → Fin S1024x1.rank))
    (hb2 : S64.BroadcastsInDim S64x16 (![0] : Fin 1 → Fin S64x16.rank)) (hsc2 : S64x16.ShapeCasts S1024) (i : Fin 1024) (z : Fin 1) :
    (broadcastInDim S1024x1 ![0] hb1 (shapeCast S1024 (broadcastInDim S64x16 ![0] hb2 (iotaInDim S64 32 0)) hsc2)) (ix2 i z)
      = BitVec.ofNat 32 (i.val / 16) := by
  rw [broadcastInDim_apply ![0] hb1 _ (ix2 i z) (ix1 i) (fun a => by
    obtain rfl : a = 0 := Subsingleton.elim _ _
    rfl)]
  rw [shapeCast_apply _ hsc2 (ix1 i) (ix2 (⟨i.val / 16, by omega⟩ : Fin 64) (⟨i.val % 16, by omega⟩ : Fin 16)) (by
    rw [Shape.rowMajor_val_two, Shape.rowMajor_val_one]
    show i.val / 16 * 16 + i.val % 16 = i.val
    omega)]
  rw [broadcastInDim_apply ![0] hb2 _ _ (ix1 (⟨i.val / 16, by omega⟩ : Fin 64)) (fun a => by
    obtain rfl : a = 0 := Subsingleton.elim _ _
    rfl)]
  rfl

/-- A number below 64, written as a 32-bit word and read back signed, is itself. -/
theorem segsum_word_toInt (n : Nat) (hn : n < 64) : (BitVec.ofNat 32 n).toInt = (n : Int) := by
  rw [BitVec.toInt_eq_toNat_cond, BitVec.toNat_ofNat]
  have : n % 2 ^ 32 = n := Nat.mod_eq_of_lt (by omega)
  rw [this]
  split <;> omega

/-- Update `i`'s window starts, on the operand's one axis, at the index word at `(i, 0)` read signed. -/
theorem segsum_start (hwf : ScatterDims.WF S64 S1024x1 S1024 [] [0] [0] 1) (idx : IVec S1024x1 32) (i : Fin 1024) (a : Fin 1) :
    (segsumDims hwf).start (ix1 i) idx a = (idx (ix2 i (0 : Fin 1))).toInt := by
  obtain rfl : a = 0 := Subsingleton.elim _ _
  unfold ScatterDims.start
  rw [dif_pos (show (0 : Fin 1) ∈ (segsumDims hwf).scatterDimsToOperandDims from List.mem_singleton.mpr rfl)]
  have hsi : (segsumDims hwf).siIdx (ix1 i) ⟨List.idxOf (0 : Fin 1) (segsumDims hwf).scatterDimsToOperandDims,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- The operand's one axis is inserted, so the window coordinate on it is 0. -/
theorem segsum_window (hwf : ScatterDims.WF S64 S1024x1 S1024 [] [0] [0] 1) (i : Fin 1024) (a : Fin 1) :
    (segsumDims hwf).window (ix1 i) a = 0 := by
  obtain rfl : a = 0 := Subsingleton.elim _ _
  unfold ScatterDims.window
  rw [dif_neg]
  show (0 : Fin 1) ∉ Shape.kept S64 [0]
  decide

/-- When the index word at `(i, 0)` reads `g` below 64, update `i` lands at slot `g`. -/
theorem segsum_result (hwf : ScatterDims.WF S64 S1024x1 S1024 [] [0] [0] 1) (idx : IVec S1024x1 32) (i : Fin 1024) (g : Fin 64)
    (hg : (idx (ix2 i (0 : Fin 1))).toInt = (g.val : Int)) :
    (segsumDims hwf).resultIdx? (ix1 i) idx = some (ix1 g) := by
  unfold ScatterDims.resultIdx?
  have h : ∀ a, 0 ≤ (segsumDims hwf).start (ix1 i) idx a + (segsumDims hwf).window (ix1 i) a ∧
      (segsumDims hwf).start (ix1 i) idx a + (segsumDims hwf).window (ix1 i) a < S64.size a := by
    intro a
    rw [segsum_start, segsum_window, hg]
    obtain rfl : a = 0 := Subsingleton.elim _ _
    have := g.isLt
    show 0 ≤ (g.val : Int) + ((0 : Nat) : Int) ∧ (g.val : Int) + ((0 : Nat) : Int) < ((64 : Nat) : Int)
    omega
  rw [dif_pos h]
  congr 1
  funext a
  obtain rfl : a = 0 := Subsingleton.elim _ _
  refine Fin.ext ?_
  show ((segsumDims hwf).start (ix1 i) idx 0 + (segsumDims hwf).window (ix1 i) 0).toNat = g.val
  rw [segsum_start, segsum_window, hg]
  omega

/-- With the index word at `(i, 0)` the word of `i / 16`, the updates landing at slot `g` are the entries
    `16·g + k`, `k < 16`: their sum is the sum over `k`. -/
theorem segsum_filter_sum (hwf : ScatterDims.WF S64 S1024x1 S1024 [] [0] [0] 1) (idx : IVec S1024x1 32)
    (hidx : ∀ i : Fin 1024, idx (ix2 i (0 : Fin 1)) = BitVec.ofNat 32 (i.val / 16)) (x : S1024.Idx → EReal) (g : Fin 64) :
    ∑ j ∈ Finset.univ.filter (fun j => (segsumDims hwf).resultIdx? j idx = some (ix1 g)), x j
      = ∑ k : Fin 16, x (ix1 (⟨16 * g.val + k.val, by omega⟩ : Fin 1024)) := by
  have hres : ∀ i : Fin 1024, (segsumDims hwf).resultIdx? (ix1 i) idx = some (ix1 (⟨i.val / 16, by omega⟩ : Fin 64)) := fun i =>
    segsum_result hwf idx i ⟨i.val / 16, by omega⟩ (by rw [hidx i]; exact segsum_word_toInt _ (by omega))
  have hmem : ∀ i : Fin 1024, (segsumDims hwf).resultIdx? (ix1 i) idx = some (ix1 g) ↔ i.val / 16 = g.val := by
    intro i
    rw [hres i]
    constructor
    · intro h
      have h1 := congrFun (Option.some.inj h) 0
      exact congrArg Fin.val h1
    · intro h
      exact congrArg (fun a => some (ix1 a)) (Fin.ext h)
  refine Finset.sum_nbij' (fun j => (⟨(j 0).val % 16, Nat.mod_lt _ (by omega)⟩ : Fin 16))
    (fun k => ix1 (⟨16 * g.val + k.val, by omega⟩ : Fin 1024)) ?_ ?_ ?_ ?_ ?_
  · intro j _; exact Finset.mem_univ _
  · intro k _
    refine Finset.mem_filter.2 ⟨Finset.mem_univ _, (hmem _).2 ?_⟩
    show (16 * g.val + k.val) / 16 = g.val
    omega
  · intro j hj
    obtain ⟨i, rfl⟩ : ∃ i : Fin 1024, j = ix1 i := ⟨j 0, eq_ix1 j⟩
    have := (hmem i).1 (Finset.mem_filter.1 hj).2
    refine congrArg ix1 (Fin.ext ?_)
    show 16 * g.val + i.val % 16 = i.val
    omega
  · intro k _
    refine Fin.ext ?_
    show (16 * g.val + k.val) % 16 = k.val
    omega
  · intro j hj
    obtain ⟨i, rfl⟩ : ∃ i : Fin 1024, j = ix1 i := ⟨j 0, eq_ix1 j⟩
    have := (hmem i).1 (Finset.mem_filter.1 hj).2
    refine congrArg (fun a => x (ix1 a)) (Fin.ext ?_)
    show i.val = 16 * g.val + i.val % 16
    omega

/-- The vector laid out 64 × 16, read at row `g` and column `k`, is its entry `16·g + k`. -/
theorem segsum_cast_row (x : FVec Ideal S1024 .f32) (hsc : S1024.ShapeCasts S64x16) (hR : S64x16.Reduces [1] S64) (g : Fin 64)
    (k : Fin 16) :
    shapeCast S64x16 x hsc (hR.lift (ix1 g) k) = x (ix1 (⟨16 * g.val + k.val, by omega⟩ : Fin 1024)) := by
  have hl : hR.lift (ix1 g) k = ix2 g k := by
    funext c; refine Fin.ext ?_
    match c with
    | ⟨0, _⟩ => rfl
    | ⟨1, _⟩ => rfl
  rw [hl]
  exact shapeCast_apply x hsc (ix2 g k) (ix1 (⟨16 * g.val + k.val, by omega⟩ : Fin 1024)) (by
    rw [Shape.rowMajor_val_two, Shape.rowMajor_val_one]
    show 16 * g.val + k.val = g.val * 16 + k.val
    omega)

/-- Summing each of the 64 consecutive groups of 16 entries of a length-1024 vector two ways gives one vector: lay the
    vector out 64 × 16 and add along the rows; or scatter-add every entry `i` into slot `i / 16` of a zero vector
    (the slot numbers being the row numbers 0 … 63 repeated 16 times each). Over the extended reals both are the sum of
    the group's 16 entries. -/
theorem segsum (x : FVec Ideal S1024 .f32) (hsc : S1024.ShapeCasts S64x16) (hr : S64x16.ReducesTo [1] S64) (h0 : 0 < S_.numel)
    (hwf : ScatterDims.WF S64 S1024x1 S1024 [] [0] [0] 1) (hb64 : S_.BroadcastsInDim S64 (![] : Fin 0 → Fin S64.rank))
    (hb1 : S1024.BroadcastsInDim S1024x1 (![0] : Fin 1 → Fin S1024x1.rank))
    (hb2 : S64.BroadcastsInDim S64x16 (![0] : Fin 1 → Fin S64x16.rank)) (hsc2 : S64x16.ShapeCasts S1024) :
    Host.reduceAdd (shapeCast S64x16 x hsc) (constant S_ .f32 0x00000000#32) hr h0
      = Host.scatterAdd (⟨[], [0], [0], 1, hwf⟩ : ScatterDims S64 S1024x1 S1024)
          (broadcastInDim S64 ![] hb64 (constant S_ .f32 0x00000000#32))
          (broadcastInDim S1024x1 ![0] hb1 (shapeCast S1024 (broadcastInDim S64x16 ![0] hb2 (iotaInDim S64 32 0)) hsc2))
          x := by
  funext j
  obtain ⟨g, rfl⟩ : ∃ g : Fin 64, j = ix1 g := ⟨j 0, eq_ix1 j⟩
  have hR : S64x16.Reduces [1] S64 := by decide
  show Ideal.hostReduceAdd hr (shapeCast S64x16 x hsc) _ (ix1 g) = Ideal.hostScatterAdd (segsumDims hwf) _ _ x (ix1 g)
  rw [Ideal.hostReduceAdd_single hr hR]
  unfold Ideal.hostScatterAdd
  rw [segsum_filter_sum hwf _ (fun i => segsum_idx_word hb1 hb2 hsc2 i 0) x g]
  exact congrArg₂ (· + ·) rfl (Finset.sum_congr rfl fun k _ => segsum_cast_row x hsc hR g k)

end Cert.Loss

end
-- ==== Proof.RefValue.lean ====
/-
  What the idealized reference returns, as the objective of its three inputs.

  The reference's one result is the composed term of its host operations.  Three of its pieces are re-read: the sum over
  all samples is `total` (the flat sum taken band by band); the sums down the columns of the squared matrix are `colsq`;
  and the scatter-add of the first 1024 column norms into 64 slots by `i / 16` is the row sum of their 64 × 16 layout.
  Everything after those pieces is the penalty's host operations, the same as the kernel program's.
-/
import proofs.«107745_j87479893885401_1_alg».proof.Proof.Gen.ReferenceIdeal.Run
import proofs.«107745_j87479893885401_1_alg».proof.Proof.Objective
import proofs.«107745_j87479893885401_1_alg».proof.Proof.FlatSum
import proofs.«107745_j87479893885401_1_alg».proof.Proof.ColSum
import proofs.«107745_j87479893885401_1_alg».proof.Proof.SegSum

noncomputable section

namespace Cert.ReferenceIdeal.RefValue

open Cert.ReferenceIdeal Cert.ReferenceIdeal.Gen
open Idealize.ShloMosaic Idealize.ShloMosaic.TcCoe Idealize.SL.Sem Idealize.ShloMosaic.ValueIdx

variable (m : (ℓ : Loc nD τ sig) → Buf (Elt Ideal) ℓ)

/-- The dimension numbers of the reference's scatter, as the literal record. -/
theorem scatter_eq : scatter_S64_S1024x1_S1024_n_0_0_1
    = (⟨[], [0], [0], 1, scatter_S64_S1024x1_S1024_n_0_0_1_wf⟩ : ScatterDims S64 S1024x1 S1024) := rfl

set_option maxRecDepth 8192 in
/-- The reference's result is the objective of its three argument arrays. -/
theorem result_eq (c : Dev nD) :
    Cert.ReferenceIdeal.Value.res_main_v53 (F := Ideal) m c
      = Cert.Loss.objective (m ((c.tc : Thread nD τ).loc main_arg0)) (m ((c.tc : Thread nD τ).loc main_arg1))
          (m ((c.tc : Thread nD τ).loc main_arg2)) := by
  unfold Cert.ReferenceIdeal.Value.res_main_v53
  have hT := Cert.Loss.host_total (m ((c.tc : Thread nD τ).loc main_arg0)) (m ((c.tc : Thread nD τ).loc main_arg1))
    reducesTo_S8388608_S_d0 h_S_ bcast_S_S8388608
  have hC := Cert.Loss.host_colsq (m ((c.tc : Thread nD τ).loc main_arg2)) reducesTo_S1024x2048_S2048_d0 h_S_
  have hS := fun x => Cert.Loss.segsum x (by decide) (by decide) h_S_ scatter_S64_S1024x1_S1024_n_0_0_1_wf bcast_S_S64
    bcast_S1024_S1024x1_0 bcast_S64_S64x16_0 shapeCasts_S64x16_S1024
  rw [scatter_eq, ← hS, hT, hC]
  rfl

end Cert.ReferenceIdeal.RefValue

end
-- ==== Proof.lean ====
/-
  The certificate: the weighted binary cross-entropy with a column-norm penalty, computed by two grid kernels and host
  arithmetic, against its plain array-level definition.

  Over the extended reals both programs return `Loss.objective` of the three inputs (Proof/Objective.lean):

    total(p, y) / 2²³ + 0.01 · ( Σ_g f (mean of the g-th group of 16 column norms) + Σ_q f (column norm 1024 + q) ).

  The kernel program adds the per-sample terms band by band over sixteen grid points into a 1 × 1 accumulator, where the
  reference adds all 2²³ of them in one sum; it sums the squares down the columns of the weight matrix 256 columns per
  grid point, where the reference reduces the whole matrix at once; and it takes the 64 group sums as row sums of a
  64 × 16 layout, where the reference scatter-adds each norm into slot `i / 16`.  Addition of extended reals is
  commutative and associative, so each pair agrees with no appeal to finiteness; everything downstream of those three
  pieces is the same host arithmetic on both sides.  No operation was rewritten by the idealization, so `preserves` is
  trivial.  The three frames are the programs' runs with the result forgotten.
-/
import proofs.«107745_j87479893885401_1_alg».proof.Defs
import proofs.«107745_j87479893885401_1_alg».proof.Proof.Gen.Kernel
import proofs.«107745_j87479893885401_1_alg».proof.Proof.Gen.Kernel.Frame
import proofs.«107745_j87479893885401_1_alg».proof.Proof.Gen.KernelIdeal
import proofs.«107745_j87479893885401_1_alg».proof.Proof.Gen.KernelIdeal.Frame
import proofs.«107745_j87479893885401_1_alg».proof.Proof.Gen.ReferenceIdeal
import proofs.«107745_j87479893885401_1_alg».proof.Proof.Gen.Pre_finite_inputs
import proofs.«107745_j87479893885401_1_alg».proof.Proof.Gen.ReferenceIdeal.Run
import proofs.«107745_j87479893885401_1_alg».proof.Proof.KernelFold
import proofs.«107745_j87479893885401_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with their one result at the objective of the inputs, which agree. -/
theorem algebraic : Cert.algebraic_KernelIdeal_ReferenceIdeal := by
  intro m ρ m' ρ' _ hagree
  refine ⟨fun c => Cert.Loss.objective (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Run.result_eq m ρ c), (h c).2⟩)
      (Cert.KernelIdeal.Run.run_fold (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
